-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x256 : Shape := ⟨2, ![2000, 256]⟩
abbrev S850000x256 : Shape := ⟨2, ![850000, 256]⟩
abbrev S1x256 : Shape := ⟨2, ![1, 256]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 89
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x256_S2000x256_1_0_0_1_n_n_wf : DotDims.WF S2000x256 S256x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x128, .f32⟩
  | 5 => ⟨S128, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000, .i32⟩
  | 70 => ⟨S1x800000, .i32⟩
  | 71 => ⟨S800000, .i32⟩
  | 72 => ⟨S850000, .i32⟩
  | 73 => ⟨S1x800000, .i32⟩
  | 74 => ⟨S800000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S50000x128, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x256, .f32⟩

abbrev hbmTy0_1 (i : Nat) : BufTy := match i % 128 with
  | 0 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«156230_j81131932221578_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.FirstProduct.lean ====
/-
  The first matrix product of the kernel, read as a whole array.

  The first pallas_call walks the 50000 rows of its left operand in 25 blocks of 2000 rows; at each block it loads the
  block and the whole 256 by 256 right operand, narrows both to bf16 (the identity on the extended reals), multiplies
  them into a zero accumulator and stores the 2000 by 256 product as the block of the same rows of the result. Entry
  (r, q) of block t is the sum over k of A(2000 t + r, k) * B(k, q), which is entry (2000 t + r, q) of the plain product
  of the whole arrays: every block is the restriction of one whole-array function, and the 25 blocks tile the result,
  so after the call the result array is the host's dot_general of the two operand arrays as the call found them.
-/
import proofs.«156230_j81131932221578_1_alg».proof.Proof.Gen.KernelIdeal.Frame
import proofs.«156230_j81131932221578_1_alg».proof.Proof.LibPlainDotAny
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.FirstProduct

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-block access, as the constant function. -/
theorem zeroOffsets : (![0, 0] : Fin 2 → Nat) = fun _ => 0 := funext fun a => by fin_cases a <;> rfl

/-- The body's product at an entry of the block: the sum over the shared axis of the loaded operands' entries. -/
theorem payload_apply (x0 : Vec Ideal S2000x256 .f32) (x1 : Vec Ideal S256x256 .f32) (j : S2000x256.Idx) :
    k0_pay1 (F := Ideal) x0 x1 j = ∑ k : Fin 256, x0 (ix2 (j 0) k) * x1 (ix2 k (j 1)) := by
  unfold k0_pay1
  exact PlainDot.matmul_zero_apply_any 2000 256 256 none _ _ j

/-- The plain product of the whole operand arrays. -/
def wholeProduct (A : FVec Ideal S50000x256 .f32) (B : FVec Ideal S256x256 .f32) : FVec Ideal S50000x256 .f32 :=
  Host.dotGeneral (F := Ideal) (DotDims.plain 50000 256 256) none A B

/-- The whole product at an entry: the sum over the shared axis. -/
theorem wholeProduct_apply (A : FVec Ideal S50000x256 .f32) (B : FVec Ideal S256x256 .f32) (i : S50000x256.Idx) :
    wholeProduct A B i = ∑ k : Fin 256, A (ix2 (i 0) k) * B (ix2 k (i 1)) :=
  PlainDot.dotGeneral_apply_any 50000 256 256 none .single A B i

/-- The printed index maps over the 25 grid points: the left operand's and the result's block row is the point, the
    right operand's block is always the first, and no map moves along the columns. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The operand arrays as the call finds them, at their literal types. -/
abbrev leftArr (c : Dev nD) : FVec Ideal S50000x256 .f32 := V c main_arg0
abbrev rightArr (c : Dev nD) : FVec Ideal S256x256 .f32 := V c main_arg2

/-- What point t writes back is block t of the whole product of the arrays the call found. -/
theorem flushed_eq (c : Dev nD) (t : Fin cfg0.N) :
    (dat0 V c).flushed 2 t
      = ((cfg0.win 2).blk t).view.read (Elt Ideal) (wholeProduct (leftArr V c) (rightArr V c)) := by
  show (cfg0.win 2).cut (grid0.coords t) ((dat0 V c).after 2 t) = _
  rw [after0_2]
  unfold out0_2
  rw [View.canon_unit_zero zeroOffsets]
  simp only [View.ld_unit_zero (S := S2000x256) zeroOffsets, View.ld_unit_zero (S := S256x256) zeroOffsets]
  obtain ⟨e00, e01, e10, e11, e20, e21⟩ := index_facts t
  funext j
  show k0_pay1 (F := Ideal) (iblk0 V c 0 t) (iblk0 V c 1 t) j
    = wholeProduct (leftArr V c) (rightArr V c) (((cfg0.win 2).blk t).view.emb j)
  rw [payload_apply, wholeProduct_apply]
  refine Finset.sum_congr rfl fun k _ => ?_
  have hj0 : (j 0).val < 2000 := (j 0).isLt
  have hj1 : (j 1).val < 256 := (j 1).isLt
  have hk : k.val < 256 := k.isLt
  have hl : ((cfg0.win 0).blk t).view.emb (ix2 (j 0) k) = ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have hr : ((cfg0.win 1).blk t).view.emb (ix2 k (j 1)) = ix2 k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  show leftArr V c (((cfg0.win 0).blk t).view.emb (ix2 (j 0) k)) * rightArr V c (((cfg0.win 1).blk t).view.emb (ix2 k (j 1))) = _
  rw [hl, hr]
  rfl

/-- An index of the result array lies in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- The 25 blocks of 2000 rows tile the 50000 rows: row r lies in block r / 2000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e20, e21⟩ := index_facts t
  have ht : t.val = (i 0).val / 2000 := rfl
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- After the call the result array holds the plain product of the operand arrays as the call found them. -/
theorem final (c : Dev nD) :
    (dat0 V c).arrAt 2 cfg0.N = wholeProduct (leftArr V c) (rightArr V c) :=
  (dat0 V c).arrAt_eq_of_cover 2 (wholeProduct (leftArr V c) (rightArr V c)) (fun t _ => flushed_eq V c t) cover

end Cert.KernelIdeal.FirstProduct

end
-- ==== Proof.SecondProduct.lean ====
/-
  The second matrix product of the kernel, read as a whole array.

  The second pallas_call walks the 50000 rows of the hidden layer in 25 blocks of 2000 rows; at each block it loads the
  block (through a shape cast to its own shape, the identity) and the whole 256 by 128 right operand, narrows both to
  bf16 (the identity on the extended reals), multiplies them into a zero accumulator and stores the 2000 by 128 product
  as the block of the same rows of the result. Entry (r, q) of block t is the sum over k of A(2000 t + r, k) * B(k, q),
  entry (2000 t + r, q) of the plain product of the whole arrays; the 25 blocks tile the result, so after the call the
  result array is the host's dot_general of the two operand arrays as the call found them.
-/
import proofs.«156230_j81131932221578_1_alg».proof.Proof.Gen.KernelIdeal.Frame
import proofs.«156230_j81131932221578_1_alg».proof.Proof.LibPlainDotAny
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.SecondProduct

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-block access, as the constant function. -/
theorem zeroOffsets : (![0, 0] : Fin 2 → Nat) = fun _ => 0 := funext fun a => by fin_cases a <;> rfl

/-- The body's product at an entry of the block: the sum over the shared axis of the loaded operands' entries. -/
theorem payload_apply (x0 : Vec Ideal S2000x256 .f32) (x1 : Vec Ideal S256x128 .f32) (j : S2000x128.Idx) :
    k1_pay1 (F := Ideal) x0 x1 j = ∑ k : Fin 256, x0 (ix2 (j 0) k) * x1 (ix2 k (j 1)) := by
  unfold k1_pay1
  rw [shapeCast_self]
  exact PlainDot.matmul_zero_apply_any 2000 256 128 none _ _ j

/-- The plain product of the whole operand arrays. -/
def wholeProduct (A : FVec Ideal S50000x256 .f32) (B : FVec Ideal S256x128 .f32) : FVec Ideal S50000x128 .f32 :=
  Host.dotGeneral (F := Ideal) (DotDims.plain 50000 256 128) none A B

/-- The whole product at an entry: the sum over the shared axis. -/
theorem wholeProduct_apply (A : FVec Ideal S50000x256 .f32) (B : FVec Ideal S256x128 .f32) (i : S50000x128.Idx) :
    wholeProduct A B i = ∑ k : Fin 256, A (ix2 (i 0) k) * B (ix2 k (i 1)) :=
  PlainDot.dotGeneral_apply_any 50000 256 128 none .single A B i

/-- The printed index maps over the 25 grid points: the left operand's and the result's block row is the point, the
    right operand's block is always the first, and no map moves along the columns. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The operand arrays as the call finds them, at their literal types. -/
abbrev leftArr (c : Dev nD) : FVec Ideal S50000x256 .f32 := V c main_v47
abbrev rightArr (c : Dev nD) : FVec Ideal S256x128 .f32 := V c main_arg4

/-- What point t writes back is block t of the whole product of the arrays the call found. -/
theorem flushed_eq (c : Dev nD) (t : Fin cfg1.N) :
    (dat1 V c).flushed 2 t
      = ((cfg1.win 2).blk t).view.read (Elt Ideal) (wholeProduct (leftArr V c) (rightArr V c)) := by
  show (cfg1.win 2).cut (grid1.coords t) ((dat1 V c).after 2 t) = _
  rw [after1_2]
  unfold out1_2
  rw [View.canon_unit_zero zeroOffsets]
  simp only [View.ld_unit_zero (S := S2000x256) zeroOffsets, View.ld_unit_zero (S := S256x128) zeroOffsets]
  obtain ⟨e00, e01, e10, e11, e20, e21⟩ := index_facts t
  funext j
  show k1_pay1 (F := Ideal) (iblk1 V c 0 t) (iblk1 V c 1 t) j
    = wholeProduct (leftArr V c) (rightArr V c) (((cfg1.win 2).blk t).view.emb j)
  rw [payload_apply, wholeProduct_apply]
  refine Finset.sum_congr rfl fun k _ => ?_
  have hj0 : (j 0).val < 2000 := (j 0).isLt
  have hj1 : (j 1).val < 128 := (j 1).isLt
  have hk : k.val < 256 := k.isLt
  have hl : ((cfg1.win 0).blk t).view.emb (ix2 (j 0) k) = ix2 ((((cfg1.win 2).blk t).view.emb j) 0) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  have hr : ((cfg1.win 1).blk t).view.emb (ix2 k (j 1)) = ix2 k ((((cfg1.win 2).blk t).view.emb j) 1) := by
    funext a; apply Fin.ext
    match a with
    | ⟨0, _⟩ => show win1_1.index t (0 : Fin 2) * 256 + 1 * k.val = k.val; omega
    | ⟨1, _⟩ => show win1_1.index t (1 : Fin 2) * 128 + 1 * (j 1).val = win1_2.index t (1 : Fin 2) * 128 + 1 * (j 1).val; omega
  show leftArr V c (((cfg1.win 0).blk t).view.emb (ix2 (j 0) k)) * rightArr V c (((cfg1.win 1).blk t).view.emb (ix2 k (j 1))) = _
  rw [hl, hr]
  rfl

/-- An index of the result array lies in point t's block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v48).slice (win1_2.rect t)).set ↔ _
  rw [View.set_slice_whole, Rect.mem_set_unit]
  exact Iff.rfl

/-- The 25 blocks of 2000 rows tile the 50000 rows: row r lies in block r / 2000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, e20, e21⟩ := index_facts t
  have ht : t.val = (i 0).val / 2000 := rfl
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the call the result array holds the plain product of the operand arrays as the call found them. -/
theorem final (c : Dev nD) :
    (dat1 V c).arrAt 2 cfg1.N = wholeProduct (leftArr V c) (rightArr V c) :=
  (dat1 V c).arrAt_eq_of_cover 2 (wholeProduct (leftArr V c) (rightArr V c)) (fun t _ => flushed_eq V c t) cover

end Cert.KernelIdeal.SecondProduct

end
-- ==== Proof.HostForm.lean ====
/-
  The kernel's program with each pallas_call replaced by the host product it computes.

  Between its stretches of host operations the kernel's @main launches two matrix products. Writing each launch as
  ONE host operation, a dot_general of the same two buffers into the same result buffer, turns the fold of buffer
  contents through @main into the fold of a single line of host operations; the contents it leaves in the result
  buffer are then a composed term of the argument arrays, as a host program's are.
-/
import proofs.«156230_j81131932221578_1_alg».proof.Proof.Gen.KernelIdeal.Launch
import Idealize.ShloMosaic.Lib.StableHlo.Run

noncomputable section

namespace Cert.KernelIdeal.HostForm

open Cert.KernelIdeal Cert.KernelIdeal.Gen
open Idealize.ShloMosaic Idealize.ShloMosaic.TcCoe Idealize.SL.Sem Idealize.ShloMosaic.StableHlo

variable {F : FTy → Type} [FloatOps F]

/-- The first launch as a host operation: the plain 50000 by 256 by 256 product of the node features and the first
    weight matrix, written to the first launch's result buffer. -/
def firstProductOp : HloOp τ sig (Elt F) :=
  binary main_arg0 main_arg2 main_v30 ((fun l r => Host.dotGeneral (DotDims.plain 50000 256 256) none l r) : (⟨S50000x256, .f32⟩ : BufTy).Contents (Elt F) → (⟨S256x256, .f32⟩ : BufTy).Contents (Elt F) → (⟨S50000x256, .f32⟩ : BufTy).Contents (Elt F))

/-- The second launch as a host operation: the plain 50000 by 256 by 128 product of the hidden layer and the second
    weight matrix, written to the second launch's result buffer. -/
def secondProductOp : HloOp τ sig (Elt F) :=
  binary main_v47 main_arg4 main_v48 ((fun l r => Host.dotGeneral (DotDims.plain 50000 256 128) none l r) : (⟨S50000x256, .f32⟩ : BufTy).Contents (Elt F) → (⟨S256x128, .f32⟩ : BufTy).Contents (Elt F) → (⟨S50000x128, .f32⟩ : BufTy).Contents (Elt F))

/-- The buffer contents after @main read as a host line: the stretches before the first launch, the first product,
    the stretches between the launches, the second product, the stretch after it. -/
def contents (V : Valuation τ sig (Elt F)) : Valuation τ sig (Elt F) :=
  after hostOps2 (secondProductOp.result (after hostOps1_1 (after hostOps1
    (firstProductOp.result (after hostOps0_2 (after hostOps0_1 (after hostOps0 V)))))))

end Cert.KernelIdeal.HostForm

end
-- ==== Proof.RegionsAsHostOps.lean ====
/-
  Each pallas_call leaves the buffers as its host product would.

  A launch changes one buffer, its result, which ends at the plain product of its two operand arrays as the launch
  found them (the two modules on the products); its operand arrays end as they were, and it touches no other
  unscoped buffer. So the buffer contents after the launch are those the one host operation "dot_general of the two
  operands into the result" leaves, buffer by buffer, and the contents after the whole of @main are the host line's.
-/
import proofs.«156230_j81131932221578_1_alg».proof.Proof.FirstProduct
import proofs.«156230_j81131932221578_1_alg».proof.Proof.SecondProduct
import proofs.«156230_j81131932221578_1_alg».proof.Proof.HostForm

set_option maxRecDepth 16384

noncomputable section

namespace Cert.KernelIdeal.RegionsAsHostOps

open Cert.KernelIdeal Cert.KernelIdeal.Gen Cert.KernelIdeal.HostForm
open Idealize.ShloMosaic Idealize.ShloMosaic.TcCoe Idealize.SL.Sem Idealize.ShloMosaic.StableHlo

variable (m : (ℓ : Loc nD τ sig) → Buf (Elt Ideal) ℓ) (ρ : Dev nD → PrngReg)

/-- After the first launch every buffer holds what the first product's host operation leaves from the entry contents. -/
theorem after_first (c : Dev nD) : W4 m ρ c = (firstProductOp (F := Ideal)).result (W3 m ρ c) := by
  funext b
  by_cases hb : b = Proc.devRef .tc main_v30
  · subst hb
    unfold firstProductOp
    rw [binary_result]
    exact (W4_arr m ρ c 2).trans (FirstProduct.final (V3 m ρ) c)
  · rw [HloOp.result_of_not_mem _ _ (by unfold firstProductOp; rw [binary_writes, Finset.mem_singleton]; exact hb)]
    by_cases h0 : b = Proc.devRef .tc main_arg0
    · subst h0
      exact (W4_arr m ρ c 0).trans (((dat0 (V3 m ρ) c).arrAt_in 0 rfl _).trans (A_eq0 (V3 m ρ) c 0))
    by_cases h1 : b = Proc.devRef .tc main_arg2
    · subst h1
      exact (W4_arr m ρ c 1).trans (((dat0 (V3 m ρ) c).arrAt_in 1 rfl _).trans (A_eq0 (V3 m ρ) c 1))
    unfold W4 Pipeline.withArrays
    rw [dif_neg]
    rintro ⟨w, e⟩
    match w with
    | ⟨0, _⟩ => exact h0 e.symm
    | ⟨1, _⟩ => exact h1 e.symm
    | ⟨2, _⟩ => exact hb e.symm

/-- After the second launch every buffer holds what the second product's host operation leaves from the entry contents. -/
theorem after_second (c : Dev nD) : W7 m ρ c = (secondProductOp (F := Ideal)).result (W6 m ρ c) := by
  funext b
  by_cases hb : b = Proc.devRef .tc main_v48
  · subst hb
    unfold secondProductOp
    rw [binary_result]
    exact (W7_arr m ρ c 2).trans (SecondProduct.final (V6 m ρ) c)
  · rw [HloOp.result_of_not_mem _ _ (by unfold secondProductOp; rw [binary_writes, Finset.mem_singleton]; exact hb)]
    by_cases h0 : b = Proc.devRef .tc main_v47
    · subst h0
      exact (W7_arr m ρ c 0).trans (((dat1 (V6 m ρ) c).arrAt_in 0 rfl _).trans (A_eq1 (V6 m ρ) c 0))
    by_cases h1 : b = Proc.devRef .tc main_arg4
    · subst h1
      exact (W7_arr m ρ c 1).trans (((dat1 (V6 m ρ) c).arrAt_in 1 rfl _).trans (A_eq1 (V6 m ρ) c 1))
    unfold W7 Pipeline.withArrays
    rw [dif_neg]
    rintro ⟨w, e⟩
    match w with
    | ⟨0, _⟩ => exact h0 e.symm
    | ⟨1, _⟩ => exact h1 e.symm
    | ⟨2, _⟩ => exact hb e.symm

/-- The buffer contents at the end of @main are the host line's from the launch contents. -/
theorem final_contents (c : Dev nD) : W8 m ρ c = contents (F := Ideal) (W0 m ρ c) := by
  show after hostOps2 (W7 m ρ c) = _
  rw [after_second]
  show after hostOps2 ((secondProductOp (F := Ideal)).result (after hostOps1_1 (after hostOps1 (W4 m ρ c)))) = _
  rw [after_first]
  rfl

end Cert.KernelIdeal.RegionsAsHostOps

end
-- ==== Proof.SameTerm.lean ====
/-
  The host line of the kernel's program and the reference compute one term.

  With its two launches written as host products, the kernel's @main is a line of host operations: the edge list's
  rows and columns with the self loops appended, the degrees by a scatter-add of ones, their inverse square roots
  where positive, the edge weights by two gathers and a product, and per layer a product with the weight matrix, a
  gather of its rows at the sources, a scaling by the edge weights, a scatter-add at the targets and the bias. The
  reference's @main is the same line, except that it computes the rows, columns and edge weights a second time for
  the second layer; as terms of the argument arrays the two results are the same tree of operations, each product the
  plain dot_general of the same two subterms. Nothing of the tree is opened: the two terms are compared as they stand.
-/
import proofs.«156230_j81131932221578_1_alg».proof.Proof.HostForm
import proofs.«156230_j81131932221578_1_alg».proof.Proof.RefRun

set_option maxRecDepth 16384

noncomputable section

namespace Cert.KernelIdeal.SameTerm

open Cert.KernelIdeal Cert.KernelIdeal.Gen Cert.KernelIdeal.HostForm
open Idealize.ShloMosaic Idealize.ShloMosaic.TcCoe Idealize.SL.Sem Idealize.ShloMosaic.StableHlo

variable {F : FTy → Type} [FloatOps F]

set_option maxHeartbeats 8000000 in
/-- From buffer contents that hold, at the six argument buffers, what the reference's memory holds at its own, the
    kernel's host line leaves in its result buffer the reference's composed result term. -/
theorem result_eq (V : Valuation τ sig (Elt F))
    (mR : (ℓ : Loc Cert.ReferenceIdeal.nD Cert.ReferenceIdeal.τ Cert.ReferenceIdeal.sig) → Buf (Elt F) ℓ) (c : Dev nD)
    (h0 : mR ((c.tc : Thread Cert.ReferenceIdeal.nD Cert.ReferenceIdeal.τ).loc Cert.ReferenceIdeal.main_arg0) = V (Proc.devRef .tc main_arg0))
    (h1 : mR ((c.tc : Thread Cert.ReferenceIdeal.nD Cert.ReferenceIdeal.τ).loc Cert.ReferenceIdeal.main_arg1) = V (Proc.devRef .tc main_arg1))
    (h2 : mR ((c.tc : Thread Cert.ReferenceIdeal.nD Cert.ReferenceIdeal.τ).loc Cert.ReferenceIdeal.main_arg2) = V (Proc.devRef .tc main_arg2))
    (h3 : mR ((c.tc : Thread Cert.ReferenceIdeal.nD Cert.ReferenceIdeal.τ).loc Cert.ReferenceIdeal.main_arg3) = V (Proc.devRef .tc main_arg3))
    (h4 : mR ((c.tc : Thread Cert.ReferenceIdeal.nD Cert.ReferenceIdeal.τ).loc Cert.ReferenceIdeal.main_arg4) = V (Proc.devRef .tc main_arg4))
    (h5 : mR ((c.tc : Thread Cert.ReferenceIdeal.nD Cert.ReferenceIdeal.τ).loc Cert.ReferenceIdeal.main_arg5) = V (Proc.devRef .tc main_arg5)) :
    contents V (Proc.devRef .tc main_v64) = Cert.ReferenceIdeal.ValuePatched.res_main_v94 mR c := by
  unfold Cert.ReferenceIdeal.ValuePatched.res_main_v94
  rw [h0, h1, h2, h3, h4, h5]
  unfold contents firstProductOp secondProductOp
  after_results_simp
  rfl

end Cert.KernelIdeal.SameTerm

end
-- ==== Proof.lean ====
/-
  Two GCN layers with a hand-tiled matrix product, against the same two layers with the host's product.

  Both programs normalise the edge list once per use (rows and columns with the self loops appended, degrees by a
  scatter-add of ones, inverse square roots where the degree is positive, an edge weight per edge), and per layer
  multiply the node features by the layer's weight matrix, gather the product's rows at the edge sources, scale them
  by the edge weights, scatter-add them at the edge targets and add the bias; a relu sits between the layers. The
  kernel computes each product X·W in a pallas_call over 25 blocks of 2000 rows, its operands narrowed to bf16; the
  reference computes it with one dot_general. On the extended reals the narrowing is the identity, and entry (r, q) of
  either product is the same sum over k of X(r, k)·W(k, q), in the same order: no law of arithmetic is used, and the
  finiteness of the inputs is never opened.

  The proof follows that reading. Each launch leaves its result array at the plain product of its operand arrays
  (Proof/FirstProduct.lean, Proof/SecondProduct.lean: a block is a restriction of the whole product, and the blocks
  tile the rows), so buffer by buffer it acts as the host operation "dot_general into the result buffer"
  (Proof/RegionsAsHostOps.lean), and the kernel's @main leaves what a line of host operations leaves
  (Proof/HostForm.lean). That line's result, as a composed term of the argument arrays, is the reference's result
  term (Proof/SameTerm.lean). The kernel's run with its result buffer named is Proof/KernelRun.lean, the reference's
  run Proof/RefRun.lean. The three frames are the generated ones (the reference's is its run with the result dropped),
  and the idealization rewrote nothing, so there is nothing to preserve.
-/
import proofs.«156230_j81131932221578_1_alg».proof.Defs
import proofs.«156230_j81131932221578_1_alg».proof.Proof.Gen.Kernel
import proofs.«156230_j81131932221578_1_alg».proof.Proof.Gen.Kernel.Frame
import proofs.«156230_j81131932221578_1_alg».proof.Proof.Gen.KernelIdeal
import proofs.«156230_j81131932221578_1_alg».proof.Proof.Gen.KernelIdeal.Frame
import proofs.«156230_j81131932221578_1_alg».proof.Proof.Gen.ReferenceIdeal
import proofs.«156230_j81131932221578_1_alg».proof.Proof.Gen.Pre_finite_inputs
import proofs.«156230_j81131932221578_1_alg».proof.Proof.KernelRun
import proofs.«156230_j81131932221578_1_alg».proof.Proof.RegionsAsHostOps
import proofs.«156230_j81131932221578_1_alg».proof.Proof.SameTerm
import proofs.«156230_j81131932221578_1_alg».proof.Proof.RefRun
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.ValuePatched.run (F := Ideal) m ρ)

/-- The idealization rewrote no operation. -/
theorem preserves : Cert.preserves_Kernel_KernelIdeal := trivial

/-- From memories that agree on the six arguments both programs end with the same result array: the kernel's host
    line from its launch contents, which is the reference's composed term of its own. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.GenRun.run_named (F := Ideal) m ρ, ?_⟩
  refine (θ_run Cert.ReferenceIdeal.defs _ _).mono (fun _ h c => ⟨(h c).1.trans ?_, (h c).2⟩)
    (Cert.ReferenceIdeal.ValuePatched.run (F := Ideal) m' ρ')
  obtain ⟨a0, a1, a2, a3, a4, a5⟩ := hagree c
  exact ((congrFun (Cert.KernelIdeal.RegionsAsHostOps.final_contents m ρ c) _).trans
    (Cert.KernelIdeal.SameTerm.result_eq (F := Ideal) (Cert.KernelIdeal.Gen.W0 m ρ c) m' c a0 a1 a2 a3 a4 a5)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
